-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x224x224x128 : Shape := ⟨4, ![16, 224, 224, 128]⟩
abbrev S_ : Shape := ⟨0, ![]⟩

class Facts : Prop where
  bcast_S_S16x224x224x128 : S_.BroadcastsInDim S16x224x224x128 (![] : Fin 0 → Fin S16x224x224x128.rank)
  reducesTo_S16x224x224x128_S_d0_1_2_3 : S16x224x224x128.ReducesTo [0, 1, 2, 3] S_
  h_S_ : 0 < S_.numel

variable [Facts]

def fn {F : FTy → Type} [FloatOps F] (main_arg0 : FVec F S16x224x224x128 .f32) : IVec S_ 1 :=
  let main_v0 : FVec F S16x224x224x128 .f32 := Host.absf main_arg0
  let main_cst : FVec F S_ .f32 := constant S_ .f32 0x7F800000#32
  let main_v1 : FVec F S16x224x224x128 .f32 := broadcastInDim S16x224x224x128 ![] bcast_S_S16x224x224x128 main_cst
  let main_v2 : IVec S16x224x224x128 1 := cmpf .olt main_v0 main_v1
  let main_c : IVec S_ 1 := constantI S_ 1 1#1
  let main_v3 : IVec S_ 1 := (fun x v => Host.reduce IntOp.andi x v reducesTo_S16x224x224x128_S_d0_1_2_3 h_S_) main_v2 main_c
  main_v3
-- ==== Kernel.lean ====
abbrev S16x224x224x128 : Shape := ⟨4, ![16, 224, 224, 128]⟩
abbrev S16x112x2x112x256 : Shape := ⟨5, ![16, 112, 2, 112, 256]⟩
abbrev S16x112x112x128 : Shape := ⟨4, ![16, 112, 112, 128]⟩
abbrev S1x28x2x112x256 : Shape := ⟨5, ![1, 28, 2, 112, 256]⟩
abbrev S1x28x112x128 : Shape := ⟨4, ![1, 28, 112, 128]⟩
abbrev S1x28x1x112x128 : Shape := ⟨5, ![1, 28, 1, 112, 128]⟩
abbrev S28x112x128 : Shape := ⟨3, ![28, 112, 128]⟩

abbrev nBuf : Space → Nat
  | .hbm => 3
  | .vmem => 4
  | .smem => 0
  | _ => 0

abbrev bufTy : (tb : Table) → Fin (tcTables nBuf tb) → BufTy
  | .hbm, ⟨0, _⟩ => ⟨S16x224x224x128, .f32⟩
  | .hbm, ⟨1, _⟩ => ⟨S16x112x2x112x256, .f32⟩
  | .hbm, ⟨2, _⟩ => ⟨S16x112x112x128, .f32⟩
  | .local _ .vmem, ⟨0, _⟩ => ⟨S1x28x2x112x256, .f32⟩
  | .local _ .vmem, ⟨1, _⟩ => ⟨S1x28x2x112x256, .f32⟩
  | .local _ .vmem, ⟨2, _⟩ => ⟨S1x28x112x128, .f32⟩
  | .local _ .vmem, ⟨3, _⟩ => ⟨S1x28x112x128, .f32⟩
  | _, _ => ⟨S16x224x224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x28x2x112x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x28x112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x224x224x128_S16x112x2x112x256 : S16x224x224x128.ShapeCasts S16x112x2x112x256
  inb_S1x28x2x112x256_S1x28x1x112x128_0_0_0_0_0 : ∀ a, (![0, 0, 0, 0, 0] : Fin 5 → Nat) a + S1x28x1x112x128.size a ≤ S1x28x2x112x256.size a
  h_S1x28x1x112x128 : 0 < S1x28x1x112x128.numel
  shapeCasts_S1x28x1x112x128_S28x112x128 : S1x28x1x112x128.ShapeCasts S28x112x128
  inb_S1x28x2x112x256_S1x28x1x112x128_0_0_0_0_128 : ∀ a, (![0, 0, 0, 0, 128] : Fin 5 → Nat) a + S1x28x1x112x128.size a ≤ S1x28x2x112x256.size a
  inb_S1x28x2x112x256_S1x28x1x112x128_0_0_1_0_0 : ∀ a, (![0, 0, 1, 0, 0] : Fin 5 → Nat) a + S1x28x1x112x128.size a ≤ S1x28x2x112x256.size a
  inb_S1x28x2x112x256_S1x28x1x112x128_0_0_1_0_128 : ∀ a, (![0, 0, 1, 0, 128] : Fin 5 → Nat) a + S1x28x1x112x128.size a ≤ S1x28x2x112x256.size a
  inb_S1x28x112x128_S1x28x112x128_0_0_0_0 : ∀ a, (![0, 0, 0, 0] : Fin 4 → Nat) a + S1x28x112x128.size a ≤ S1x28x112x128.size a
  h_S1x28x112x128 : 0 < S1x28x112x128.numel
  shapeCasts_S1x28x112x128_S28x112x128 : S1x28x112x128.ShapeCasts S28x112x128
  shapeCasts_S28x112x128_S1x28x112x128 : S28x112x128.ShapeCasts S1x28x112x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x28x2x112x256.size a ≤ S16x112x2x112x256.size a
  hwx0_0 : ∀ i : grid0.Coords, EltTy.bits .f32 = 32 ∨ (Rect.block (s := S16x112x2x112x256) S1x28x2x112x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x28x112x128.size a ≤ S16x112x112x128.size a
  hwx0_1 : ∀ i : grid0.Coords, EltTy.bits .f32 = 32 ∨ (Rect.block (s := S16x112x112x128) S1x28x112x128.size (cc0_transform_1 i) (hinb0_1 i)).WholeWords (EltTy.packing .f32)

variable [Facts₀]

abbrev win0_0 : Pipeline.Window sig grid0 :=
  Pipeline.Window.ofSpec (Memref.whole main_v0) S1x28x2x112x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x28x112x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x224x224x128 : Shape := ⟨4, ![16, 224, 224, 128]⟩
abbrev S16x112x2x112x2x128 : Shape := ⟨6, ![16, 112, 2, 112, 2, 128]⟩
abbrev S16x112x112x2x2x128 : Shape := ⟨6, ![16, 112, 112, 2, 2, 128]⟩
abbrev S16x112x112x4x128 : Shape := ⟨5, ![16, 112, 112, 4, 128]⟩
abbrev S_ : Shape := ⟨0, ![]⟩
abbrev S16x112x112x128 : Shape := ⟨4, ![16, 112, 112, 128]⟩
abbrev S16x112x112x1x128 : Shape := ⟨5, ![16, 112, 112, 1, 128]⟩

abbrev nBuf : Space → Nat
  | .hbm => 21
  | .vmem => 0
  | .smem => 0
  | _ => 0

abbrev bufTy : (tb : Table) → Fin (tcTables nBuf tb) → BufTy
  | .hbm, ⟨0, _⟩ => ⟨S16x224x224x128, .f32⟩
  | .hbm, ⟨1, _⟩ => ⟨S16x112x2x112x2x128, .f32⟩
  | .hbm, ⟨2, _⟩ => ⟨S16x112x112x2x2x128, .f32⟩
  | .hbm, ⟨3, _⟩ => ⟨S16x112x112x4x128, .f32⟩
  | .hbm, ⟨4, _⟩ => ⟨S_, .f32⟩
  | .hbm, ⟨5, _⟩ => ⟨S16x112x112x128, .f32⟩
  | .hbm, ⟨6, _⟩ => ⟨S_, .f32⟩
  | .hbm, ⟨7, _⟩ => ⟨S16x112x112x128, .f32⟩
  | .hbm, ⟨8, _⟩ => ⟨S16x112x112x128, .f32⟩
  | .hbm, ⟨9, _⟩ => ⟨S16x112x112x1x128, .f32⟩
  | .hbm, ⟨10, _⟩ => ⟨S16x112x112x4x128, .f32⟩
  | .hbm, ⟨11, _⟩ => ⟨S16x112x112x4x128, .f32⟩
  | .hbm, ⟨12, _⟩ => ⟨S16x112x112x4x128, .f32⟩
  | .hbm, ⟨13, _⟩ => ⟨S_, .f32⟩
  | .hbm, ⟨14, _⟩ => ⟨S16x112x112x128, .f32⟩
  | .hbm, ⟨15, _⟩ => ⟨S16x112x112x1x128, .f32⟩
  | .hbm, ⟨16, _⟩ => ⟨S16x112x112x4x128, .f32⟩
  | .hbm, ⟨17, _⟩ => ⟨S16x112x112x4x128, .f32⟩
  | .hbm, ⟨18, _⟩ => ⟨S16x112x112x4x128, .f32⟩
  | .hbm, ⟨19, _⟩ => ⟨S_, .f32⟩
  | .hbm, ⟨20, _⟩ => ⟨S16x112x112x128, .f32⟩
  | _, _ => ⟨S16x224x224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S16x224x224x128_S16x112x2x112x2x128 : S16x224x224x128.ShapeCasts S16x112x2x112x2x128
  transposes_S16x112x2x112x2x128_S16x112x112x2x2x128_0_1_3_2_4_5 : S16x112x2x112x2x128.Transposes [0, 1, 3, 2, 4, 5] S16x112x112x2x2x128
  shapeCasts_S16x112x112x2x2x128_S16x112x112x4x128 : S16x112x112x2x2x128.ShapeCasts S16x112x112x4x128
  reducesTo_S16x112x112x4x128_S16x112x112x128_d3 : S16x112x112x4x128.ReducesTo [3] S16x112x112x128
  h_S_ : 0 < S_.numel
  bcast_S_S16x112x112x128 : S_.BroadcastsInDim S16x112x112x128 (![] : Fin 0 → Fin S16x112x112x128.rank)
  bcast_S16x112x112x128_S16x112x112x1x128_0_1_2_4 : S16x112x112x128.BroadcastsInDim S16x112x112x1x128 (![0, 1, 2, 4] : Fin 4 → Fin S16x112x112x1x128.rank)
  bcast_S16x112x112x1x128_S16x112x112x4x128_0_1_2_3_4 : S16x112x112x1x128.BroadcastsInDim S16x112x112x4x128 (![0, 1, 2, 3, 4] : Fin 5 → Fin S16x112x112x4x128.rank)

variable [Facts₀]

class Facts : Prop extends Facts₀ where

variable [Facts]
-- ==== Proof.SoftMean.lean ====
/-
  The window mean of attention pooling, on the extended reals.

  For four values a, b, c, d of one 2x2 window and one channel, with m their maximum, the pooled value is
      (a e^(a-m) + b e^(b-m) + c e^(c-m) + d e^(d-m)) / (e^(a-m) + e^(b-m) + e^(c-m) + e^(d-m)),
  the softmax-weighted mean of the four. `softmean` is that quotient with the sums associated to the left and the
  maximum as max (max a b) (max c d). The other arrangement normalises each weight first and then sums,
      0 + sum_k p_k (e^(p_k - M) / (0 + sum_j e^(p_j - M))),   M = max (-inf) (the maximum of the p_k from -inf).
  On real entries both are the same real number: every exponential is a positive real, so the denominator is a
  nonzero real, division by it is multiplication by its reciprocal, and the reciprocal distributes over the sum.
  At an infinite entry the two need not agree (inf - inf), which is why the statement is over real entries.
-/
import Idealize.ShloMosaic.PureOps.Ideal

noncomputable section

namespace Cert.AttPool

open Idealize.ShloMosaic

/-- The softmax-weighted mean of four extended reals, the maximum subtracted before exponentiating. -/
def softmean (a b c d : EReal) : EReal :=
  Ideal.div
    (a * Ideal.exp (a - max (max a b) (max c d)) + b * Ideal.exp (b - max (max a b) (max c d))
      + c * Ideal.exp (c - max (max a b) (max c d)) + d * Ideal.exp (d - max (max a b) (max c d)))
    (Ideal.exp (a - max (max a b) (max c d)) + Ideal.exp (b - max (max a b) (max c d))
      + Ideal.exp (c - max (max a b) (max c d)) + Ideal.exp (d - max (max a b) (max c d)))

/-- The coercion of the reals into the extended reals is monotone, so it carries a maximum to the maximum. -/
theorem coe_max (x y : ℝ) : ((max x y : ℝ) : EReal) = max (x : EReal) (y : EReal) :=
  EReal.coe_strictMono.monotone.map_max

/-- The maximum of four reals from -inf, as a fold over the four positions, is their real maximum. -/
theorem fold_max_four (q : Fin 4 → ℝ) :
    (Finset.univ : Finset (Fin 4)).fold max (⊥ : EReal) (fun k => (q k : EReal))
      = ((max (max (q 0) (q 1)) (max (q 2) (q 3)) : ℝ) : EReal) := by
  apply le_antisymm
  · rw [Finset.fold_max_le]
    refine ⟨bot_le, fun k _ => ?_⟩
    rw [EReal.coe_le_coe_iff]
    fin_cases k <;> simp
  · rw [coe_max, coe_max, coe_max]
    have hk : ∀ k : Fin 4, (q k : EReal) ≤ (Finset.univ : Finset (Fin 4)).fold max (⊥ : EReal) (fun k => (q k : EReal)) :=
      fun k => (Finset.le_fold_max _).2 (Or.inr ⟨k, Finset.mem_univ k, le_rfl⟩)
    exact max_le (max_le (hk 0) (hk 1)) (max_le (hk 2) (hk 3))

/-- On real entries the softmax-weighted mean is the real quotient. -/
theorem softmean_coe (a b c d : ℝ) :
    softmean a b c d
      = (((a * Real.exp (a - max (max a b) (max c d)) + b * Real.exp (b - max (max a b) (max c d))
            + c * Real.exp (c - max (max a b) (max c d)) + d * Real.exp (d - max (max a b) (max c d)))
          * (1 / (Real.exp (a - max (max a b) (max c d)) + Real.exp (b - max (max a b) (max c d))
            + Real.exp (c - max (max a b) (max c d)) + Real.exp (d - max (max a b) (max c d)))) : ℝ) : EReal) := by
  have hS : Real.exp (a - max (max a b) (max c d)) + Real.exp (b - max (max a b) (max c d))
      + Real.exp (c - max (max a b) (max c d)) + Real.exp (d - max (max a b) (max c d)) ≠ 0 := by positivity
  unfold softmean
  simp only [← coe_max, ← EReal.coe_sub, Ideal.exp_coe, ← EReal.coe_mul, ← EReal.coe_add]
  rw [Ideal.div_coe hS, ← EReal.coe_mul]

/-- Normalising each weight and then summing gives the same value on real entries. -/
theorem normalised_sum_eq_softmean (q : Fin 4 → ℝ) :
    (0 : EReal) + ∑ k : Fin 4, (q k : EReal) *
        Ideal.div (Ideal.exp ((q k : EReal) - max (⊥ : EReal) ((Finset.univ : Finset (Fin 4)).fold max (⊥ : EReal) fun j => (q j : EReal))))
          ((0 : EReal) + ∑ l : Fin 4,
            Ideal.exp ((q l : EReal) - max (⊥ : EReal) ((Finset.univ : Finset (Fin 4)).fold max (⊥ : EReal) fun j => (q j : EReal))))
      = softmean (q 0) (q 1) (q 2) (q 3) := by
  have hS : Real.exp (q 0 - max (max (q 0) (q 1)) (max (q 2) (q 3))) + Real.exp (q 1 - max (max (q 0) (q 1)) (max (q 2) (q 3)))
      + Real.exp (q 2 - max (max (q 0) (q 1)) (max (q 2) (q 3))) + Real.exp (q 3 - max (max (q 0) (q 1)) (max (q 2) (q 3))) ≠ 0 := by
    positivity
  rw [softmean_coe, fold_max_four, max_eq_right bot_le, Fin.sum_univ_four, Fin.sum_univ_four]
  simp only [← EReal.coe_sub, Ideal.exp_coe, ← EReal.coe_add, zero_add]
  rw [Ideal.div_coe hS, Ideal.div_coe hS, Ideal.div_coe hS, Ideal.div_coe hS]
  simp only [← EReal.coe_mul, ← EReal.coe_add]
  rw [EReal.coe_eq_coe_iff]
  ring

end Cert.AttPool

end
-- ==== Proof.KernelBlock.lean ====
/-
  One grid point of the pooling kernel, read at an index.

  At a grid point the kernel holds a [1, 28, 2, 112, 256] block of the input viewed as [16, 112, 2, 112, 256]: 28 output
  rows, for each the two input rows of its windows (axis 2), and on the last axis the two columns of a window side by
  side, 128 channels each. The body loads the four [1, 28, 1, 112, 128] pieces (row parity 0 or 1, lane half 0 or 1),
  views each as [28, 112, 128], combines them pointwise into the softmax-weighted mean and stores the result as the
  [1, 28, 112, 128] output block. So the entry (0, r, w, c) of the block it leaves is the mean of the four input entries
  (0, r, i, w, 128 j + c), i, j in {0, 1}.
-/
import proofs.«420470_j79482664780429_3_alg».proof.Proof.Gen.KernelIdeal.Frame
import proofs.«420470_j79482664780429_3_alg».proof.Proof.SoftMean
import Idealize.ShloMosaic.Lib.Pipeline.Value
import Idealize.ShloMosaic.Lib.ValueIdx

noncomputable section

namespace Cert.KernelIdeal.Pool

open Cert.KernelIdeal Cert.KernelIdeal.Gen Cert.AttPool Idealize.ShloMosaic Idealize.ShloMosaic.ValueIdx

/-- The lane of column parity `j` and channel `c` in a row of 256. -/
abbrev lane (j : Fin 2) (c : Fin 128) : Fin 256 := ⟨128 * j.val + c.val, by have := j.isLt; have := c.isLt; omega⟩

/-- A [1, 28, 1, 112, 128] piece viewed as [28, 112, 128] keeps its entries: (r, w, c) reads (0, r, 0, w, c). -/
theorem piece_cast (v : Vec Ideal S1x28x1x112x128 .f32) (r : Fin 28) (w : Fin 112) (c : Fin 128) :
    shapeCast S28x112x128 v shapeCasts_S1x28x1x112x128_S28x112x128 (ix3 r w c) = v (ix5 (0 : Fin 1) r (0 : Fin 1) w c) :=
  shapeCast_apply v _ (ix3 r w c) (ix5 (0 : Fin 1) r (0 : Fin 1) w c) (by
    rw [Shape.rowMajor_val_five, Shape.rowMajor_val_three]
    show ((((0 : ℕ) * 28 + r.val) * 1 + 0) * 112 + w.val) * 128 + c.val = (r.val * 112 + w.val) * 128 + c.val
    omega)

/-- The stored value at (0, r, w, c) is the softmax-weighted mean of the four loaded pieces at (0, r, 0, w, c). -/
theorem payload_apply (v0 v2 v4 v6 : Vec Ideal S1x28x1x112x128 .f32) (r : Fin 28) (w : Fin 112) (c : Fin 128) :
    k0_pay1 (F := Ideal) v0 v2 v4 v6 (ix4 (0 : Fin 1) r w c)
      = softmean (v0 (ix5 (0 : Fin 1) r (0 : Fin 1) w c)) (v2 (ix5 (0 : Fin 1) r (0 : Fin 1) w c))
          (v4 (ix5 (0 : Fin 1) r (0 : Fin 1) w c)) (v6 (ix5 (0 : Fin 1) r (0 : Fin 1) w c)) := by
  rw [← piece_cast v0 r w c, ← piece_cast v2 r w c, ← piece_cast v4 r w c, ← piece_cast v6 r w c]
  unfold k0_pay1
  refine (shapeCast_apply _ _ (ix4 (0 : Fin 1) r w c) (ix3 r w c) (by
    rw [Shape.rowMajor_val_three, Shape.rowMajor_val_four]
    show (r.val * 112 + w.val) * 128 + c.val = (((0 : ℕ) * 28 + r.val) * 112 + w.val) * 128 + c.val
    omega)).trans ?_
  rfl

theorem zero_offsets : (![0, 0, 0, 0] : Fin 4 → Nat) = fun _ => 0 := funext fun a => by fin_cases a <;> rfl

/-- A piece loaded at row parity `i` and lane half `j` reads the block at (0, r, i, w, 128 j + c). -/
theorem load_apply (x0 : Vec Ideal S1x28x2x112x256 .f32) (i j : Fin 2)
    (inb : ∀ a, (![0, 0, i.val, 0, 128 * j.val] : Fin 5 → Nat) a + S1x28x1x112x128.size a ≤ S1x28x2x112x256.size a)
    (r : Fin 28) (w : Fin 112) (c : Fin 128) :
    View.ld x0 (Rect.unit (s := S1x28x2x112x256) ![0, 0, i.val, 0, 128 * j.val] S1x28x1x112x128.size inb)
        (ix5 (0 : Fin 1) r (0 : Fin 1) w c)
      = x0 (ix5 (0 : Fin 1) r i w (lane j c)) := by
  show x0 _ = x0 _
  congr 1
  funext a
  apply Fin.ext
  match a with
  | ⟨0, _⟩ => show 0 + 1 * 0 = 0; omega
  | ⟨1, _⟩ => show 0 + 1 * r.val = r.val; omega
  | ⟨2, _⟩ => show i.val + 1 * 0 = i.val; omega
  | ⟨3, _⟩ => show 0 + 1 * w.val = w.val; omega
  | ⟨4, _⟩ => show 128 * j.val + 1 * c.val = 128 * j.val + c.val; omega

/-- THE BLOCK THE BODY LEAVES: entry (0, r, w, c) is the softmax-weighted mean of the four entries
    (0, r, i, w, 128 j + c) of the input block, row parity first. -/
theorem block_apply (x0 : Vec Ideal S1x28x2x112x256 .f32) (r : Fin 28) (w : Fin 112) (c : Fin 128) :
    out0_1 (F := Ideal) x0 (ix4 (0 : Fin 1) r w c)
      = softmean (x0 (ix5 (0 : Fin 1) r (0 : Fin 2) w (lane 0 c))) (x0 (ix5 (0 : Fin 1) r (0 : Fin 2) w (lane 1 c)))
          (x0 (ix5 (0 : Fin 1) r (1 : Fin 2) w (lane 0 c))) (x0 (ix5 (0 : Fin 1) r (1 : Fin 2) w (lane 1 c))) := by
  unfold out0_1
  rw [View.canon_unit_zero zero_offsets]
  refine (payload_apply _ _ _ _ r w c).trans ?_
  have e00 : View.ld x0 r0_0 (ix5 (0 : Fin 1) r (0 : Fin 1) w c) = x0 (ix5 (0 : Fin 1) r (0 : Fin 2) w (lane 0 c)) :=
    load_apply x0 0 0 inb_S1x28x2x112x256_S1x28x1x112x128_0_0_0_0_0 r w c
  have e01 : View.ld x0 r0_1 (ix5 (0 : Fin 1) r (0 : Fin 1) w c) = x0 (ix5 (0 : Fin 1) r (0 : Fin 2) w (lane 1 c)) :=
    load_apply x0 0 1 inb_S1x28x2x112x256_S1x28x1x112x128_0_0_0_0_128 r w c
  have e10 : View.ld x0 r0_2 (ix5 (0 : Fin 1) r (0 : Fin 1) w c) = x0 (ix5 (0 : Fin 1) r (1 : Fin 2) w (lane 0 c)) :=
    load_apply x0 1 0 inb_S1x28x2x112x256_S1x28x1x112x128_0_0_1_0_0 r w c
  have e11 : View.ld x0 r0_3 (ix5 (0 : Fin 1) r (0 : Fin 1) w c) = x0 (ix5 (0 : Fin 1) r (1 : Fin 2) w (lane 1 c)) :=
    load_apply x0 1 1 inb_S1x28x2x112x256_S1x28x1x112x128_0_0_1_0_128 r w c
  rw [e00, e01, e10, e11]

end Cert.KernelIdeal.Pool

end
-- ==== Proof.Pooled.lean ====
/-
  Attention pooling of a [16, 224, 224, 128] array over its non-overlapping 2x2 windows, as one function of the array.

  Output entry (b, h, w, c) is the softmax-weighted mean (`softmean`) of the four input entries of window (h, w) in
  channel c: x(b, 2h + i, 2w + j, c) for i, j in {0, 1}, listed row by row.
-/
import proofs.«420470_j79482664780429_3_alg».proof.Proof.SoftMean
import Idealize.ShloMosaic.Lib.ValueIdx

noncomputable section

namespace Cert.AttPool

open Idealize.ShloMosaic Idealize.ShloMosaic.ValueIdx

/-- The input row (or column) of parity `p` in window `h`. -/
abbrev row (h : Fin 112) (p : Fin 2) : Fin 224 := ⟨2 * h.val + p.val, by have := h.isLt; have := p.isLt; omega⟩

/-- The pooled value of window (h, w) in image `b` and channel `c`. -/
def poolAt (x : (⟨4, ![16, 224, 224, 128]⟩ : Shape).Idx → EReal) (b : Fin 16) (h w : Fin 112) (c : Fin 128) : EReal :=
  softmean (x (ix4 b (row h 0) (row w 0) c)) (x (ix4 b (row h 0) (row w 1) c))
    (x (ix4 b (row h 1) (row w 0) c)) (x (ix4 b (row h 1) (row w 1) c))

/-- The pooled array. -/
def pooled (x : (⟨4, ![16, 224, 224, 128]⟩ : Shape).Idx → EReal) : (⟨4, ![16, 112, 112, 128]⟩ : Shape).Idx → EReal :=
  fun i => poolAt x (i 0) (i 1) (i 2) (i 3)

theorem pooled_apply (x : (⟨4, ![16, 224, 224, 128]⟩ : Shape).Idx → EReal) (b : Fin 16) (h w : Fin 112) (c : Fin 128) :
    pooled x (ix4 b h w c) = poolAt x b h w c := rfl

end Cert.AttPool

end
-- ==== Proof.KernelArray.lean ====
/-
  The pooling kernel's output array after the run, as one function of the input array.

  The input reaches the kernel as the [16, 224, 224, 128] array viewed [16, 112, 2, 112, 256]: entry (b, h, i, w, 128 j + c)
  of the view is entry (b, 2h + i, 2w + j, c) of the array (equal row-major positions). Grid point (b, q) holds the input
  block of image b, window rows 28 q .. 28 q + 27, and writes back the output block of the same image and rows. So what
  the point writes at (0, r, w, c) is the pooled value of image b, window row 28 q + r, window column w, channel c; the
  64 output blocks tile the output array, which therefore ends as the pooled array.
-/
import proofs.«420470_j79482664780429_3_alg».proof.Proof.KernelBlock
import proofs.«420470_j79482664780429_3_alg».proof.Proof.Pooled
import Idealize.ShloMosaic.Lib.StableHlo.Run

set_option maxRecDepth 16384

noncomputable section

namespace Cert.KernelIdeal.Pool

open Cert.KernelIdeal Cert.KernelIdeal.Gen Cert.AttPool Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The array the input window stages is the launched input viewed [16, 112, 2, 112, 256]. -/
theorem staged_input (c : Dev nD) :
    (V m c main_v0 : S16x112x2x112x256.Idx → EReal)
      = shapeCast S16x112x2x112x256 (m ((c : Thread nD τ).loc main_arg0)) shapeCasts_S16x224x224x128_S16x112x2x112x256 := by
  dsimp only [Gen.V, Gen.hostOps0]; after_results; rfl

/-- The view read by coordinates: (b, h, i, w, 128 j + c) of the view is (b, 2h + i, 2w + j, c) of the array. -/
theorem view_apply (x : S16x224x224x128.Idx → EReal) (b : Fin 16) (h : Fin 112) (i : Fin 2) (w : Fin 112) (j : Fin 2) (c : Fin 128) :
    shapeCast S16x112x2x112x256 x shapeCasts_S16x224x224x128_S16x112x2x112x256 (ix5 b h i w (lane j c))
      = x (ix4 b (row h i) (row w j) c) :=
  shapeCast_apply x _ (ix5 b h i w (lane j c)) (ix4 b (row h i) (row w j) c) (by
    rw [Shape.rowMajor_val_four, Shape.rowMajor_val_five]
    show ((b.val * 224 + (2 * h.val + i.val)) * 224 + (2 * w.val + j.val)) * 128 + c.val
      = (((b.val * 112 + h.val) * 2 + i.val) * 112 + w.val) * 256 + (128 * j.val + c.val)
    omega)

/-- The two index maps over the 64 grid points: both windows sit at block (b, q) on their first two axes and at block 0
    on the others, with b below 16 and q below 4. -/
theorem idx_facts : ∀ t : Fin cfg0.N,
    win0_0.index t (0 : Fin 5) = win0_1.index t (0 : Fin 4) ∧ win0_0.index t (1 : Fin 5) = win0_1.index t (1 : Fin 4)
    ∧ win0_0.index t (2 : Fin 5) = 0 ∧ win0_0.index t (3 : Fin 5) = 0 ∧ win0_0.index t (4 : Fin 5) = 0
    ∧ win0_1.index t (2 : Fin 4) = 0 ∧ win0_1.index t (3 : Fin 4) = 0
    ∧ win0_1.index t (0 : Fin 4) ≤ 15 ∧ win0_1.index t (1 : Fin 4) ≤ 3 :=
  (by decide +kernel : ∀ t : Fin grid0.N, _)

/-- Every block (b, q) of the output is some grid point's. -/
theorem idx_onto : ∀ (q0 : Fin 16) (q1 : Fin 4), ∃ t : Fin cfg0.N, win0_1.index t = ![q0.val, q1.val, 0, 0] :=
  (by decide +kernel : ∀ (q0 : Fin 16) (q1 : Fin 4), ∃ t : Fin grid0.N, win0_1.index t = ![q0.val, q1.val, 0, 0])

/-- WHAT A GRID POINT WRITES BACK is its block of the pooled array. -/
theorem flushed_eq (c : Dev nD) (t : Fin cfg0.N) :
    (dats m 0 c).flushed 1 t
      = ((cfg0.win 1).blk t).view.read (Elt Ideal) (pooled (m ((c : Thread nD τ).loc main_arg0))) := by
  show (cfg0.win 1).cut (grid0.coords t) ((dats m 0 c).after 1 t) = _
  rw [after0_1]
  obtain ⟨e0, e1, e2, e3, e4, e5, e6, hb, hq⟩ := idx_facts t
  funext y
  have hy0 : (y 0).val < 1 := (y 0).isLt
  obtain ⟨r, w, ch, rfl⟩ : ∃ (r : Fin 28) (w : Fin 112) (ch : Fin 128), y = ix4 (0 : Fin 1) r w ch :=
    ⟨y 1, y 2, y 3, funext fun a => match a with
      | ⟨0, _⟩ => Fin.ext (by show (y 0).val = 0; omega)
      | ⟨1, _⟩ => rfl
      | ⟨2, _⟩ => rfl
      | ⟨3, _⟩ => rfl⟩
  show out0_1 (iblk m c 0 t) (ix4 (0 : Fin 1) r w ch)
    = pooled (m ((c : Thread nD τ).loc main_arg0)) (((cfg0.win 1).blk t).view.emb (ix4 (0 : Fin 1) r w ch))
  refine (block_apply (iblk m c 0 t) r w ch).trans ?_
  have hout : ((cfg0.win 1).blk t).view.emb (ix4 (0 : Fin 1) r w ch)
      = ix4 (⟨win0_1.index t (0 : Fin 4), by omega⟩ : Fin 16) (⟨win0_1.index t (1 : Fin 4) * 28 + r.val, by have := r.isLt; omega⟩ : Fin 112) w ch := by
    funext a; apply Fin.ext
    match a with
    | ⟨0, _⟩ => show win0_1.index t (0 : Fin 4) * 1 + 1 * 0 = win0_1.index t (0 : Fin 4); omega
    | ⟨1, _⟩ => show win0_1.index t (1 : Fin 4) * 28 + 1 * r.val = win0_1.index t (1 : Fin 4) * 28 + r.val; omega
    | ⟨2, _⟩ => show win0_1.index t (2 : Fin 4) * 112 + 1 * w.val = w.val; omega
    | ⟨3, _⟩ => show win0_1.index t (3 : Fin 4) * 128 + 1 * ch.val = ch.val; omega
  have hin : ∀ i j : Fin 2, iblk m c 0 t (ix5 (0 : Fin 1) r i w (lane j ch))
      = m ((c : Thread nD τ).loc main_arg0) (ix4 (⟨win0_1.index t (0 : Fin 4), by omega⟩ : Fin 16)
          (row (⟨win0_1.index t (1 : Fin 4) * 28 + r.val, by have := r.isLt; omega⟩ : Fin 112) i) (row w j) ch) := by
    intro i j
    show V m c main_v0 (((cfg0.win 0).blk t).view.emb (ix5 (0 : Fin 1) r i w (lane j ch))) = _
    rw [staged_input]
    refine Eq.trans (congrArg _ ?_) (view_apply _ (⟨win0_1.index t (0 : Fin 4), by omega⟩ : Fin 16)
      (⟨win0_1.index t (1 : Fin 4) * 28 + r.val, by have := r.isLt; omega⟩ : Fin 112) i w j ch)
    funext a; apply Fin.ext
    match a with
    | ⟨0, _⟩ => show win0_0.index t (0 : Fin 5) * 1 + 1 * 0 = win0_1.index t (0 : Fin 4); omega
    | ⟨1, _⟩ => show win0_0.index t (1 : Fin 5) * 28 + 1 * r.val = win0_1.index t (1 : Fin 4) * 28 + r.val; omega
    | ⟨2, _⟩ => show win0_0.index t (2 : Fin 5) * 2 + 1 * i.val = i.val; omega
    | ⟨3, _⟩ => show win0_0.index t (3 : Fin 5) * 112 + 1 * w.val = w.val; omega
    | ⟨4, _⟩ => show win0_0.index t (4 : Fin 5) * 256 + 1 * (128 * j.val + ch.val) = 128 * j.val + ch.val; omega
  rw [hout, pooled_apply, hin 0 0, hin 0 1, hin 1 0, hin 1 1]
  rfl

/-- An index of the output is in a grid point's block iff each coordinate lies in the block's range on its axis. -/
theorem mem_blk (t : Fin cfg0.N) (i : S16x112x112x128.Idx) :
    i ∈ ((cfg0.win 1).blk t).view.set ↔ ∀ a : Fin 4, win0_1.index t a * S1x28x112x128.size a ≤ (i a).val
      ∧ (i a).val < win0_1.index t a * S1x28x112x128.size a + S1x28x112x128.size a := by
  show i ∈ ((View.whole main_v1).slice (win0_1.rect t)).set ↔ _
  rw [View.set_slice_whole, Rect.mem_set_unit]
  exact Iff.rfl

/-- The output blocks cover the output array: index (b, h, w, c) is in the block of the point at (b, h / 28). -/
theorem covered (i : S16x112x112x128.Idx) :
    ∃ t : Fin cfg0.N, (cfg0.win 1).flush t = true ∧ i ∈ ((cfg0.win 1).blk t).view.set := by
  have hi0 : (i 0).val < 16 := (i 0).isLt
  have hi1 : (i 1).val < 112 := (i 1).isLt
  have hi2 : (i 2).val < 112 := (i 2).isLt
  have hi3 : (i 3).val < 128 := (i 3).isLt
  obtain ⟨t, ht⟩ := idx_onto ⟨(i 0).val, hi0⟩ ⟨(i 1).val / 28, by omega⟩
  have q0 : win0_1.index t (0 : Fin 4) = (i 0).val := congrFun ht 0
  have q1 : win0_1.index t (1 : Fin 4) = (i 1).val / 28 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 28 ≤ (i 1).val ∧ (i 1).val < win0_1.index t (1 : Fin 4) * 28 + 28; omega
  | ⟨2, _⟩ => show win0_1.index t (2 : Fin 4) * 112 ≤ (i 2).val ∧ (i 2).val < win0_1.index t (2 : Fin 4) * 112 + 112; omega
  | ⟨3, _⟩ => show win0_1.index t (3 : Fin 4) * 128 ≤ (i 3).val ∧ (i 3).val < win0_1.index t (3 : Fin 4) * 128 + 128; omega

/-- THE OUTPUT ARRAY after the run is the pooled input. -/
theorem final (c : Dev nD) : (dats m 0 c).arrAt 1 cfg0.N = pooled (m ((c : Thread nD τ).loc main_arg0)) :=
  (dats m 0 c).arrAt_eq_of_cover 1 (pooled (m ((c : Thread nD τ).loc main_arg0))) (fun t _ => flushed_eq m c t) covered

/-- The kernel's run: it terminates with the result array at the pooled input and the input unchanged. -/
theorem run : θ_run defs (onTc (τ := τ) (main (F := Ideal))) ⟨m, fun _ => 0, ρ⟩ fun r => ∀ c : Dev nD,
      r.2.mem ((c : Thread nD τ).loc main_v1) = pooled (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).2 main_arg0 (Pipeline.mem_restRefs_of main_arg0 (by decide) (by decide))).trans (V_main_arg0 m c)⟩)
    (run_main m ρ)

end Cert.KernelIdeal.Pool

end
-- ==== Proof.Reference.lean ====
/-
  The reference, read at an output index, is the pooled array on real inputs.

  The reference lays the four entries of each 2x2 window out along an axis of length 4: patch k = 2 i + j of window (h, w)
  in image b and channel c is x(b, 2h + i, 2w + j, c). It then takes the softmax along that axis (the maximum from -inf
  subtracted, the exponentials normalised by their sum) and sums the patches weighted by it. Read at (b, h, w, c) this is
  the normalised weighted sum of the four patch entries, which on real entries is their softmax-weighted mean.
-/
import proofs.«420470_j79482664780429_3_alg».proof.Proof.Gen.ReferenceIdeal.Read
import proofs.«420470_j79482664780429_3_alg».proof.Proof.Pooled
import Idealize.ShloMosaic.Lib.ValueIdxRank6
import Idealize.ShloMosaic.PureOps.Reduce
import Idealize.ShloMosaic.PureOps.Ideal.Laws

noncomputable section

namespace Cert.ReferenceIdeal.Pool

open Cert.ReferenceIdeal Cert.ReferenceIdeal.Gen Cert.ReferenceIdeal.Read Cert.AttPool
open Idealize.ShloMosaic Idealize.ShloMosaic.ValueIdx

/-- The input array's type as the reference's stages take it. -/
abbrev Arr := (⟨S16x224x224x128, .f32⟩ : BufTy).Contents (Elt Ideal)

/-- The position of row parity `i` and column parity `j` on the patch axis. -/
abbrev patchPos (i j : Fin 2) : Fin 4 := ⟨2 * i.val + j.val, by have := i.isLt; have := j.isLt; omega⟩

/-- The bit pattern of -inf denotes the bottom element. -/
theorem neg_inf : Ideal.ofBits .f32 0xFF800000#32 = (⊥ : EReal) := by simp [Ideal.ofBits, Ideal.ieee]

/-- THE PATCHES: entry (b, h, w, 2 i + j, c) is the input at (b, 2h + i, 2w + j, c): the first reshape splits both
    spatial axes into (window, parity), the transpose brings the two parities together, the second reshape merges them. -/
theorem patch_apply (x : Arr) (b : Fin 16) (h w : Fin 112) (i j : Fin 2) (c : Fin 128) :
    val_main_v2 (F := Ideal) x (ix5 b h w (patchPos i j) c) = x (ix4 b (row h i) (row w j) c) := by
  unfold val_main_v2
  refine (shapeCast_apply _ _ (ix5 b h w (patchPos i j) c) (ix6 b h w i j c) (by
    rw [Shape.rowMajor_val_six, Shape.rowMajor_val_five]
    show ((((b.val * 112 + h.val) * 112 + w.val) * 2 + i.val) * 2 + j.val) * 128 + c.val
      = (((b.val * 112 + h.val) * 112 + w.val) * 4 + (2 * i.val + j.val)) * 128 + c.val
    omega)).trans ?_
  refine (val_main_v1_apply x (ix6 b h w i j c)).trans ?_
  unfold val_main_v0
  exact shapeCast_apply _ _ (idx_main_v1 (ix6 b h w i j c)) (ix4 b (row h i) (row w j) c) (by
    rw [Shape.rowMajor_val_four, Shape.rowMajor_val_six]
    show ((b.val * 224 + (2 * h.val + i.val)) * 224 + (2 * w.val + j.val)) * 128 + c.val
      = ((((b.val * 112 + h.val) * 2 + i.val) * 112 + w.val) * 2 + j.val) * 128 + c.val
    omega)

/-- Every patch entry is an entry of the input (reshapes and a transpose only move entries). -/
theorem patch_mem (x : Arr) (j : S16x112x112x4x128.Idx) : ∃ i, val_main_v2 (F := Ideal) x j = x i := ⟨_, rfl⟩

/-- The four patch entries of window (h, w), image b, channel c. -/
abbrev patches (x : Arr) (b : Fin 16) (h w : Fin 112) (c : Fin 128) : Fin 4 → EReal :=
  fun k => val_main_v2 (F := Ideal) x (ix5 b h w k c)

/-- THE ROW MAXIMUM: the reduce by maximum over the patch axis, from -inf. -/
theorem rowmax_apply (x : Arr) (b : Fin 16) (h w : Fin 112) (c : Fin 128) :
    val_main_v3 (F := Ideal) x (ix4 b h w c)
      = (Finset.univ : Finset (Fin 4)).fold max (⊥ : EReal) (patches x b h w c) := by
  unfold val_main_v3
  rw [Host.reduce_eq_fold_single FloatOps.maximumf _ _ reducesTo_S16x112x112x4x128_S16x112x112x128_d3 (by decide) h_S_]
  have hinit : val_main_cst (F := Ideal) (Shape.Idx.first h_S_) = (⊥ : EReal) := neg_inf
  rw [hinit]
  have hf : ∀ k : Fin 4, (Shape.Reduces.lift (s := S16x112x112x4x128) (a := (3 : Fin 5)) (t := S16x112x112x128) (by decide) (ix4 b h w c) k)
      = ix5 b h w k c := fun k => funext fun a => Fin.ext (by
    match a with | ⟨0, _⟩ => rfl | ⟨1, _⟩ => rfl | ⟨2, _⟩ => rfl | ⟨3, _⟩ => rfl | ⟨4, _⟩ => rfl)
  exact congrArg (fun f => Finset.fold max (⊥ : EReal) f (Finset.univ : Finset (Fin 4))) (funext fun k => congrArg (val_main_v2 (F := Ideal) x) (hf k))

/-! ### The later stages at (b, h, w, k, c): each reads the patch axis at k and everything else at (b, h, w, c) -/

theorem sum_index_eq (b : Fin 16) (h w : Fin 112) (c : Fin 128) (k : Fin 4) :
    idx_main_v15 (ix4 b h w c) k = ix5 b h w k c :=
  funext fun a => match a with | ⟨0, _⟩ => rfl | ⟨1, _⟩ => rfl | ⟨2, _⟩ => rfl | ⟨3, _⟩ => rfl | ⟨4, _⟩ => rfl

theorem expsum_index_eq (b : Fin 16) (h w : Fin 112) (c : Fin 128) (k : Fin 4) :
    idx_main_v10 (ix4 b h w c) k = ix5 b h w k c :=
  funext fun a => match a with | ⟨0, _⟩ => rfl | ⟨1, _⟩ => rfl | ⟨2, _⟩ => rfl | ⟨3, _⟩ => rfl | ⟨4, _⟩ => rfl

theorem shift_index_eq (b : Fin 16) (h w : Fin 112) (c : Fin 128) (k : Fin 4) :
    idx_main_v6 (idx_main_v7 (ix5 b h w k c)) = ix4 b h w c :=
  funext fun a => match a with | ⟨0, _⟩ => rfl | ⟨1, _⟩ => rfl | ⟨2, _⟩ => rfl | ⟨3, _⟩ => rfl

theorem norm_index_eq (b : Fin 16) (h w : Fin 112) (c : Fin 128) (k : Fin 4) :
    idx_main_v11 (idx_main_v12 (ix5 b h w k c)) = ix4 b h w c :=
  funext fun a => match a with | ⟨0, _⟩ => rfl | ⟨1, _⟩ => rfl | ⟨2, _⟩ => rfl | ⟨3, _⟩ => rfl

/-- THE SHIFT: the maximum against -inf of the row maximum. -/
theorem shift_apply (x : Arr) (b : Fin 16) (h w : Fin 112) (c : Fin 128) :
    val_main_v5 (F := Ideal) x (ix4 b h w c)
      = max (⊥ : EReal) ((Finset.univ : Finset (Fin 4)).fold max (⊥ : EReal) (patches x b h w c)) := by
  rw [val_main_v5_apply, val_main_v4_apply, val_main_cst_0_apply, rowmax_apply]
  show max (Ideal.ofBits .f32 0xFF800000#32) _ = _
  rw [neg_inf]

/-- THE EXPONENTIALS: patch k less the shift, exponentiated. -/
theorem exp_apply (x : Arr) (b : Fin 16) (h w : Fin 112) (c : Fin 128) (k : Fin 4) :
    val_main_v9 (F := Ideal) x (ix5 b h w k c)
      = Ideal.exp (patches x b h w c k - val_main_v5 (F := Ideal) x (ix4 b h w c)) := by
  rw [val_main_v9_apply, val_main_v8_apply, val_main_v7_apply, val_main_v6_apply, shift_index_eq]
  rfl

/-- THEIR SUM over the patch axis, from zero. -/
theorem expsum_apply (x : Arr) (b : Fin 16) (h w : Fin 112) (c : Fin 128) :
    val_main_v10 (F := Ideal) x (ix4 b h w c)
      = (0 : EReal) + ∑ k : Fin 4, Ideal.exp (patches x b h w c k - val_main_v5 (F := Ideal) x (ix4 b h w c)) := by
  rw [val_main_v10_apply, val_main_cst_1_apply]
  show Ideal.ofBits .f32 0x00000000#32 + _ = _
  rw [Ideal.ofBits_zero_f32]
  refine congrArg ((0 : EReal) + ·) (Finset.sum_congr rfl fun k _ => ?_)
  rw [expsum_index_eq, exp_apply]

/-- THE WEIGHTED PATCHES: patch k times its exponential over the sum. -/
theorem weighted_apply (x : Arr) (b : Fin 16) (h w : Fin 112) (c : Fin 128) (k : Fin 4) :
    val_main_v14 (F := Ideal) x (ix5 b h w k c)
      = patches x b h w c k * Ideal.div (Ideal.exp (patches x b h w c k - val_main_v5 (F := Ideal) x (ix4 b h w c)))
          (val_main_v10 (F := Ideal) x (ix4 b h w c)) := by
  rw [val_main_v14_apply, val_main_v13_apply, val_main_v12_apply, val_main_v11_apply, norm_index_eq, exp_apply]
  rfl

/-- THE RESULT at (b, h, w, c), on an input of real entries, is the pooled value of window (h, w). -/
theorem result_apply (x : Arr) (hx : ∀ i, ∃ r : ℝ, x i = (r : EReal)) (b : Fin 16) (h w : Fin 112) (c : Fin 128) :
    val_main_v15 (F := Ideal) x (ix4 b h w c) = poolAt x b h w c := by
  have hq : ∀ k : Fin 4, ∃ r : ℝ, patches x b h w c k = (r : EReal) := fun k => by
    obtain ⟨i, hi⟩ := patch_mem x (ix5 b h w k c)
    obtain ⟨r, hr⟩ := hx i
    exact ⟨r, hi.trans hr⟩
  choose q hq using hq
  have hp : patches x b h w c = fun k => (q k : EReal) := funext hq
  rw [val_main_v15_apply, val_main_cst_2_apply]
  show Ideal.ofBits .f32 0x00000000#32 + _ = _
  rw [Ideal.ofBits_zero_f32]
  have hterm : ∀ k : Fin 4, val_main_v14 (F := Ideal) x (idx_main_v15 (ix4 b h w c) k)
      = (q k : EReal) * Ideal.div (Ideal.exp ((q k : EReal)
            - max (⊥ : EReal) ((Finset.univ : Finset (Fin 4)).fold max (⊥ : EReal) fun j => (q j : EReal))))
          ((0 : EReal) + ∑ l : Fin 4, Ideal.exp ((q l : EReal)
            - max (⊥ : EReal) ((Finset.univ : Finset (Fin 4)).fold max (⊥ : EReal) fun j => (q j : EReal)))) := by
    intro k
    rw [sum_index_eq, weighted_apply, expsum_apply, shift_apply, hp]
  rw [Finset.sum_congr rfl fun k _ => hterm k, normalised_sum_eq_softmean q]
  unfold poolAt
  rw [← hq 0, ← hq 1, ← hq 2, ← hq 3]
  exact congr (congr (congr (congrArg softmean (patch_apply x b h w 0 0 c)) (patch_apply x b h w 0 1 c))
    (patch_apply x b h w 1 0 c)) (patch_apply x b h w 1 1 c)

/-- THE RESULT ARRAY on an input of real entries is the pooled input. -/
theorem result_eq (x : Arr) (hx : ∀ i, ∃ r : ℝ, x i = (r : EReal)) : val_main_v15 (F := Ideal) x = pooled x := by
  funext i
  obtain ⟨b, h, w, c, rfl⟩ : ∃ (b : Fin 16) (h w : Fin 112) (c : Fin 128), i = ix4 b h w c := ⟨i 0, i 1, i 2, i 3, eq_ix4 i⟩
  exact result_apply x hx b h w c

end Cert.ReferenceIdeal.Pool

end
-- ==== Proof.FiniteInputs.lean ====
/-
  Under the precondition every input entry is a real number.

  The precondition evaluates |x| < +inf at every index and takes the conjunction of all the answers. On the extended
  reals |x| is max x (-x) and +inf is the top element, so the conjunction being true says that neither x nor -x is the
  top element at any index: every entry is a real.
-/
import proofs.«420470_j79482664780429_3_alg».proof.Pre_finite_inputs
import Idealize.ShloMosaic.Lib.ReduceAll
import Idealize.ShloMosaic.Lib.ValueIdx
import Idealize.ShloMosaic.PureOps.Ideal

noncomputable section

namespace Cert.Pre_finite_inputs.Real

open Cert.Pre_finite_inputs Idealize.ShloMosaic

variable [Facts]

instance : Subsingleton S_.Idx := ⟨fun a b => funext fun d => d.elim0⟩

/-- The bit pattern of +inf denotes the top element. -/
theorem pos_inf : Ideal.ofBits .f32 0x7F800000#32 = (⊤ : EReal) := by simp [Ideal.ofBits, Ideal.ieee]

/-- An array on which the precondition is true has a real number at every index. -/
theorem real_of_pre (x : FVec Ideal S16x224x224x128 .f32) (h : fn (F := Ideal) x = fun _ => 1#1) (i : S16x224x224x128.Idx) :
    ∃ r : ℝ, x i = (r : EReal) := by
  have h0 := congrFun h ValueIdx.ix0
  dsimp only [fn] at h0
  have hi := Host.reduce_andi_all _ _ _ _ _ h0 i
  have hc : Ideal.cmp .olt (max (x i) (-(x i))) (Ideal.ofBits .f32 0x7F800000#32) = 1#1 := hi
  rw [pos_inf] at hc
  have hlt : max (x i) (-(x i)) < ⊤ := by
    by_contra hn
    simp [Ideal.cmp, hn] at hc
  generalize x i = v at hlt ⊢
  induction v using EReal.rec with
  | bot => simp at hlt
  | coe r => exact ⟨r, rfl⟩
  | top => simp at hlt

end Cert.Pre_finite_inputs.Real

end
-- ==== Proof.lean ====
/-
  Attention pooling over non-overlapping 2x2 windows: the Pallas kernel against its jnp reference, on the extended reals.

  Both programs map x : [16, 224, 224, 128] to [16, 112, 112, 128]. At (b, h, w, c) the four entries
  x(b, 2h + i, 2w + j, c), i, j in {0, 1}, of one window and channel are combined into their softmax-weighted mean
      (sum_k p_k e^(p_k - m)) / (sum_k e^(p_k - m)),    m = max_k p_k.
  The kernel computes exactly this quotient on each of 64 blocks of 28 output rows (the array `pooled x`: KernelBlock for
  one block, KernelArray for the blocks tiling the output). The reference normalises the weights first,
  sum_k p_k (e^(p_k - m) / sum_j e^(p_j - m)), after gathering the four entries along an axis by two reshapes and a
  transpose (Reference). On real entries the two are one real number (SoftMean); the precondition makes every input
  entry real (FiniteInputs). The three programs run and leave the input unchanged: the two kernels by their generated
  frames, the reference by its generated run. The idealization rewrote nothing, so it preserves the kernel trivially.
-/
import proofs.«420470_j79482664780429_3_alg».proof.Defs
import proofs.«420470_j79482664780429_3_alg».proof.Proof.Gen.Kernel
import proofs.«420470_j79482664780429_3_alg».proof.Proof.Gen.Kernel.Skeleton
import proofs.«420470_j79482664780429_3_alg».proof.Proof.Gen.Kernel.Launch
import proofs.«420470_j79482664780429_3_alg».proof.Proof.Gen.Kernel.Points
import proofs.«420470_j79482664780429_3_alg».proof.Proof.Gen.Kernel.Frame
import proofs.«420470_j79482664780429_3_alg».proof.Proof.Gen.KernelIdeal
import proofs.«420470_j79482664780429_3_alg».proof.Proof.Gen.KernelIdeal.Skeleton
import proofs.«420470_j79482664780429_3_alg».proof.Proof.Gen.KernelIdeal.Launch
import proofs.«420470_j79482664780429_3_alg».proof.Proof.Gen.KernelIdeal.Points
import proofs.«420470_j79482664780429_3_alg».proof.Proof.Gen.KernelIdeal.Frame
import proofs.«420470_j79482664780429_3_alg».proof.Proof.Gen.ReferenceIdeal
import proofs.«420470_j79482664780429_3_alg».proof.Proof.Gen.Pre_finite_inputs
import proofs.«420470_j79482664780429_3_alg».proof.Proof.Gen.ReferenceIdeal.Run
import proofs.«420470_j79482664780429_3_alg».proof.Proof.Gen.ReferenceIdeal.Read
import proofs.«420470_j79482664780429_3_alg».proof.Proof.KernelArray
import proofs.«420470_j79482664780429_3_alg».proof.Proof.Reference
import proofs.«420470_j79482664780429_3_alg».proof.Proof.FiniteInputs
import Idealize.ShloMosaic.Adequacy
import Idealize.ShloMosaic.Init

noncomputable section

namespace Cert.Proof

open Idealize.ShloMosaic Idealize.SL.Sem

/-- The kernel as printed runs and leaves its input unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on a real-valued input, both programs end with the pooled input as their result. -/
theorem algebraic : Cert.algebraic_KernelIdeal_ReferenceIdeal := by
  intro m ρ m' ρ' hpre hagree
  refine ⟨fun c => Cert.AttPool.pooled (m ((c.tc : Thread Cert.KernelIdeal.nD Cert.KernelIdeal.τ).loc Cert.KernelIdeal.main_arg0)),
    Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v15_eq _).trans
    (Cert.ReferenceIdeal.Pool.result_eq _ fun i => Cert.Pre_finite_inputs.Real.real_of_pre _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
